-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x4 : Shape := ⟨2, ![200000, 4]⟩
abbrev S8000000x2 : Shape := ⟨2, ![8000000, 2]⟩
abbrev S8000000 : Shape := ⟨1, ![8000000]⟩
abbrev S_ : Shape := ⟨0, ![]⟩

class Facts : Prop where
  bcast_S_S200000x4 : S_.BroadcastsInDim S200000x4 (![] : Fin 0 → Fin S200000x4.rank)
  reducesTo_S200000x4_S_d0_1 : S200000x4.ReducesTo [0, 1] S_
  h_S_ : 0 < S_.numel
  bcast_S_S8000000 : S_.BroadcastsInDim S8000000 (![] : Fin 0 → Fin S8000000.rank)
  reducesTo_S8000000_S_d0 : S8000000.ReducesTo [0] S_

variable [Facts]

def fn {F : FTy → Type} [FloatOps F] (main_arg0 : FVec F S200000x4 .f32) (main_arg1 : IVec S8000000x2 32) (main_arg2 : FVec F S8000000 .f32) : IVec S_ 1 :=
  let main_v0 : FVec F S200000x4 .f32 := Host.absf main_arg0
  let main_cst : FVec F S_ .f32 := constant S_ .f32 0x7F800000#32
  let main_v1 : FVec F S200000x4 .f32 := broadcastInDim S200000x4 ![] bcast_S_S200000x4 main_cst
  let main_v2 : IVec S200000x4 1 := cmpf .olt main_v0 main_v1
  let main_c : IVec S_ 1 := constantI S_ 1 1#1
  let main_v3 : IVec S_ 1 := (fun x v => Host.reduce IntOp.andi x v reducesTo_S200000x4_S_d0_1 h_S_) main_v2 main_c
  let main_v4 : FVec F S8000000 .f32 := Host.absf main_arg2
  let main_cst_0 : FVec F S_ .f32 := constant S_ .f32 0x7F800000#32
  let main_v5 : FVec F S8000000 .f32 := broadcastInDim S8000000 ![] bcast_S_S8000000 main_cst_0
  let main_v6 : IVec S8000000 1 := cmpf .olt main_v4 main_v5
  let main_c_1 : IVec S_ 1 := constantI S_ 1 1#1
  let main_v7 : IVec S_ 1 := (fun x v => Host.reduce IntOp.andi x v reducesTo_S8000000_S_d0 h_S_) main_v6 main_c_1
  let main_v8 : IVec S_ 1 := andi main_v3 main_v7
  let main_cst_2 : FVec F S_ .f32 := constant S_ .f32 0x00000000#32
  let main_v9 : FVec F S8000000 .f32 := broadcastInDim S8000000 ![] bcast_S_S8000000 main_cst_2
  let main_v10 : IVec S8000000 1 := cmpf .une main_arg2 main_v9
  let main_c_3 : IVec S_ 1 := constantI S_ 1 1#1
  let main_v11 : IVec S_ 1 := (fun x v => Host.reduce IntOp.andi x v reducesTo_S8000000_S_d0 h_S_) main_v10 main_c_3
  let main_v12 : IVec S_ 1 := andi main_v8 main_v11
  main_v12
-- ==== Kernel.lean ====
abbrev S200000x4 : Shape := ⟨2, ![200000, 4]⟩
abbrev S8000000x2 : Shape := ⟨2, ![8000000, 2]⟩
abbrev S8000000 : Shape := ⟨1, ![8000000]⟩
abbrev S8000000x1 : Shape := ⟨2, ![8000000, 1]⟩
abbrev S62500x128 : Shape := ⟨2, ![62500, 128]⟩
abbrev S8000x128 : Shape := ⟨2, ![8000, 128]⟩
abbrev S_ : Shape := ⟨0, ![]⟩
abbrev S8000000x4 : Shape := ⟨2, ![8000000, 4]⟩

abbrev nBuf : Space → Nat
  | .hbm => 56
  | .vmem => 4
  | .smem => 0
  | _ => 0

abbrev bufTy : (tb : Table) → Fin (tcTables nBuf tb) → BufTy
  | .hbm, ⟨0, _⟩ => ⟨S200000x4, .f32⟩
  | .hbm, ⟨1, _⟩ => ⟨S8000000x2, .i32⟩
  | .hbm, ⟨2, _⟩ => ⟨S8000000, .f32⟩
  | .hbm, ⟨3, _⟩ => ⟨S8000000x1, .i32⟩
  | .hbm, ⟨4, _⟩ => ⟨S8000000, .i32⟩
  | .hbm, ⟨5, _⟩ => ⟨S8000000x1, .i32⟩
  | .hbm, ⟨6, _⟩ => ⟨S8000000, .i32⟩
  | .hbm, ⟨7, _⟩ => ⟨S62500x128, .f32⟩
  | .hbm, ⟨8, _⟩ => ⟨S62500x128, .f32⟩
  | .hbm, ⟨9, _⟩ => ⟨S8000000, .f32⟩
  | .hbm, ⟨10, _⟩ => ⟨S8000000x1, .f32⟩
  | .hbm, ⟨11, _⟩ => ⟨S_, .i32⟩
  | .hbm, ⟨12, _⟩ => ⟨S8000000, .i32⟩
  | .hbm, ⟨13, _⟩ => ⟨S8000000, .i1⟩
  | .hbm, ⟨14, _⟩ => ⟨S_, .i32⟩
  | .hbm, ⟨15, _⟩ => ⟨S8000000, .i32⟩
  | .hbm, ⟨16, _⟩ => ⟨S8000000, .i32⟩
  | .hbm, ⟨17, _⟩ => ⟨S8000000, .i32⟩
  | .hbm, ⟨18, _⟩ => ⟨S8000000x1, .i32⟩
  | .hbm, ⟨19, _⟩ => ⟨S8000000x4, .f32⟩
  | .hbm, ⟨20, _⟩ => ⟨S8000000x4, .f32⟩
  | .hbm, ⟨21, _⟩ => ⟨S8000000x4, .f32⟩
  | .hbm, ⟨22, _⟩ => ⟨S_, .i32⟩
  | .hbm, ⟨23, _⟩ => ⟨S8000000, .i32⟩
  | .hbm, ⟨24, _⟩ => ⟨S8000000, .i1⟩
  | .hbm, ⟨25, _⟩ => ⟨S_, .i32⟩
  | .hbm, ⟨26, _⟩ => ⟨S8000000, .i32⟩
  | .hbm, ⟨27, _⟩ => ⟨S8000000, .i32⟩
  | .hbm, ⟨28, _⟩ => ⟨S8000000, .i32⟩
  | .hbm, ⟨29, _⟩ => ⟨S8000000x1, .i32⟩
  | .hbm, ⟨30, _⟩ => ⟨S8000000x4, .f32⟩
  | .hbm, ⟨31, _⟩ => ⟨S8000000x4, .f32⟩
  | .hbm, ⟨32, _⟩ => ⟨S8000000x4, .f32⟩
  | .hbm, ⟨33, _⟩ => ⟨S_, .f32⟩
  | .hbm, ⟨34, _⟩ => ⟨S200000x4, .f32⟩
  | .hbm, ⟨35, _⟩ => ⟨S_, .i32⟩
  | .hbm, ⟨36, _⟩ => ⟨S8000000, .i32⟩
  | .hbm, ⟨37, _⟩ => ⟨S8000000, .i1⟩
  | .hbm, ⟨38, _⟩ => ⟨S_, .i32⟩
  | .hbm, ⟨39, _⟩ => ⟨S8000000, .i32⟩
  | .hbm, ⟨40, _⟩ => ⟨S8000000, .i32⟩
  | .hbm, ⟨41, _⟩ => ⟨S8000000, .i32⟩
  | .hbm, ⟨42, _⟩ => ⟨S8000000x1, .i32⟩
  | .hbm, ⟨43, _⟩ => ⟨S200000x4, .f32⟩
  | .hbm, ⟨44, _⟩ => ⟨S_, .i32⟩
  | .hbm, ⟨45, _⟩ => ⟨S8000000, .i32⟩
  | .hbm, ⟨46, _⟩ => ⟨S8000000, .i1⟩
  | .hbm, ⟨47, _⟩ => ⟨S_, .i32⟩
  | .hbm, ⟨48, _⟩ => ⟨S8000000, .i32⟩
  | .hbm, ⟨49, _⟩ => ⟨S8000000, .i32⟩
  | .hbm, ⟨50, _⟩ => ⟨S8000000, .i32⟩
  | .hbm, ⟨51, _⟩ => ⟨S8000000x1, .i32⟩
  | .hbm, ⟨52, _⟩ => ⟨S200000x4, .f32⟩
  | .hbm, ⟨53, _⟩ => ⟨S_, .f32⟩
  | .hbm, ⟨54, _⟩ => ⟨S200000x4, .f32⟩
  | .hbm, ⟨55, _⟩ => ⟨S200000x4, .f32⟩
  | .local _ .vmem, ⟨0, _⟩ => ⟨S8000x128, .f32⟩
  | .local _ .vmem, ⟨1, _⟩ => ⟨S8000x128, .f32⟩
  | .local _ .vmem, ⟨2, _⟩ => ⟨S8000x128, .f32⟩
  | .local _ .vmem, ⟨3, _⟩ => ⟨S8000x128, .f32⟩
  | _, _ => ⟨S200000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_v8 : Ref sig .tc := ⟨.hbm, 12, rfl⟩
abbrev main_v9 : Ref sig .tc := ⟨.hbm, 13, rfl⟩
abbrev main_c_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_c_1 : Ref sig .tc := ⟨.hbm, 22, rfl⟩
abbrev main_v17 : Ref sig .tc := ⟨.hbm, 23, rfl⟩
abbrev main_v18 : Ref sig .tc := ⟨.hbm, 24, rfl⟩
abbrev main_c_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst : Ref sig .tc := ⟨.hbm, 33, rfl⟩
abbrev main_v26 : Ref sig .tc := ⟨.hbm, 34, rfl⟩
abbrev main_c_3 : Ref sig .tc := ⟨.hbm, 35, rfl⟩
abbrev main_v27 : Ref sig .tc := ⟨.hbm, 36, rfl⟩
abbrev main_v28 : Ref sig .tc := ⟨.hbm, 37, rfl⟩
abbrev main_c_4 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_c_5 : Ref sig .tc := ⟨.hbm, 44, rfl⟩
abbrev main_v34 : Ref sig .tc := ⟨.hbm, 45, rfl⟩
abbrev main_v35 : Ref sig .tc := ⟨.hbm, 46, rfl⟩
abbrev main_c_6 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_7 : Ref sig .tc := ⟨.hbm, 53, rfl⟩
abbrev main_v41 : Ref sig .tc := ⟨.hbm, 54, rfl⟩
abbrev main_v42 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  slices_S8000000x2_S8000000x1_0_0 : S8000000x2.Slices ![0, 0] S8000000x1
  shapeCasts_S8000000x1_S8000000 : S8000000x1.ShapeCasts S8000000
  slices_S8000000x2_S8000000x1_0_1 : S8000000x2.Slices ![0, 1] S8000000x1
  shapeCasts_S8000000_S62500x128 : S8000000.ShapeCasts S62500x128
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  shapeCasts_S62500x128_S8000000 : S62500x128.ShapeCasts S8000000
  shapeCasts_S8000000_S8000000x1 : S8000000.ShapeCasts S8000000x1
  bcast_S_S8000000 : S_.BroadcastsInDim S8000000 (![] : Fin 0 → Fin S8000000.rank)
  bcast_S8000000_S8000000x1_0 : S8000000.BroadcastsInDim S8000000x1 (![0] : Fin 1 → Fin S8000000x1.rank)
  bcast_S8000000x1_S8000000x4_0_1 : S8000000x1.BroadcastsInDim S8000000x4 (![0, 1] : Fin 2 → Fin S8000000x4.rank)
  bcast_S_S200000x4 : S_.BroadcastsInDim S200000x4 (![] : Fin 0 → Fin S200000x4.rank)
  gather_S200000x4_S8000000x1_S8000000x4_1_0_n_n_0_1_14_wf : GatherDims.WF S200000x4 S8000000x1 S8000000x4 [1] [0] [] [0] [] 1 ![1, 4]
  scatter_S200000x4_S8000000x1_S8000000x4_1_0_0_1_wf : ScatterDims.WF S200000x4 S8000000x1 S8000000x4 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S8000x128.size a < S62500x128.size a
  hwx0_0 : ∀ i : grid0.Coords, EltTy.bits .f32 = 32 ∨ (Rect.unit (s := S62500x128) (fun a => cc0_transform_0 i a * S8000x128.size a) (fun a => (Pipeline.Clip.of (cc0_transform_0 i a) (S8000x128.size a) (S62500x128.size a)).extent (S8000x128.size a)) fun a => Pipeline.Clip.inb (Pipeline.Clip.ok_of (hstart0_0 i a))).WholeWords (EltTy.packing .f32)
  hwxs0_0 : ∀ i : grid0.Coords, EltTy.bits .f32 = 32 ∨ (Rect.unit (s := S8000x128) (fun _ => 0) (fun a => (Pipeline.Clip.of (cc0_transform_0 i a) (S8000x128.size a) (S62500x128.size a)).extent (S8000x128.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S8000x128.size a < S62500x128.size a
  hwx0_1 : ∀ i : grid0.Coords, EltTy.bits .f32 = 32 ∨ (Rect.unit (s := S62500x128) (fun a => cc0_transform_1 i a * S8000x128.size a) (fun a => (Pipeline.Clip.of (cc0_transform_1 i a) (S8000x128.size a) (S62500x128.size a)).extent (S8000x128.size a)) fun a => Pipeline.Clip.inb (Pipeline.Clip.ok_of (hstart0_1 i a))).WholeWords (EltTy.packing .f32)
  hwxs0_1 : ∀ i : grid0.Coords, EltTy.bits .f32 = 32 ∨ (Rect.unit (s := S8000x128) (fun _ => 0) (fun a => (Pipeline.Clip.of (cc0_transform_1 i a) (S8000x128.size a) (S62500x128.size a)).extent (S8000x128.size a)) fun a => (Nat.zero_add _).trans_le (Pipeline.Clip.extent_le (Pipeline.Clip.ok_of (hstart0_1 i a)))).WholeWords (EltTy.packing .f32)

variable [Facts₀]

def gather_S200000x4_S8000000x1_S8000000x4_1_0_n_n_0_1_14 : GatherDims S200000x4 S8000000x1 S8000000x4 where
  offsetDims := [1]
  collapsedSliceDims := [0]
  operandBatchingDims := []
  startIndicesBatchingDims := []
  startIndexMap := [0]
  indexVectorDim := 1
  sliceSizes := ![1, 4]
  wf := gather_S200000x4_S8000000x1_S8000000x4_1_0_n_n_0_1_14_wf
def scatter_S200000x4_S8000000x1_S8000000x4_1_0_0_1 : ScatterDims S200000x4 S8000000x1 S8000000x4 where
  updateWindowDims := [1]
  insertedWindowDims := [0]
  scatterDimsToOperandDims := [0]
  indexVectorDim := 1
  wf := scatter_S200000x4_S8000000x1_S8000000x4_1_0_0_1_wf

abbrev win0_0 : Pipeline.Window sig grid0 :=
  Pipeline.Window.ofSpecClip (Memref.whole main_v4) S8000x128.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v5) S8000x128.size cc0_transform_1 reads0_1 true false 2 stage0_1 sem0_1
    hrank0 hreads0_1 hstart0_1 nbuf0_1 (Memref.isWhole_whole _) hwx0_1 hwxs0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S200000x4 : Shape := ⟨2, ![200000, 4]⟩
abbrev S8000000x2 : Shape := ⟨2, ![8000000, 2]⟩
abbrev S8000000 : Shape := ⟨1, ![8000000]⟩
abbrev S_ : Shape := ⟨0, ![]⟩
abbrev S8000000x1 : Shape := ⟨2, ![8000000, 1]⟩
abbrev S8000000x4 : Shape := ⟨2, ![8000000, 4]⟩

abbrev nBuf : Space → Nat
  | .hbm => 56
  | .vmem => 0
  | .smem => 0
  | _ => 0

abbrev bufTy : (tb : Table) → Fin (tcTables nBuf tb) → BufTy
  | .hbm, ⟨0, _⟩ => ⟨S200000x4, .f32⟩
  | .hbm, ⟨1, _⟩ => ⟨S8000000x2, .i32⟩
  | .hbm, ⟨2, _⟩ => ⟨S8000000, .f32⟩
  | .hbm, ⟨3, _⟩ => ⟨S_, .f32⟩
  | .hbm, ⟨4, _⟩ => ⟨S8000000, .f32⟩
  | .hbm, ⟨5, _⟩ => ⟨S8000000, .f32⟩
  | .hbm, ⟨6, _⟩ => ⟨S8000000x1, .i32⟩
  | .hbm, ⟨7, _⟩ => ⟨S8000000, .i32⟩
  | .hbm, ⟨8, _⟩ => ⟨S8000000x1, .i32⟩
  | .hbm, ⟨9, _⟩ => ⟨S8000000, .i32⟩
  | .hbm, ⟨10, _⟩ => ⟨S8000000x1, .f32⟩
  | .hbm, ⟨11, _⟩ => ⟨S_, .i32⟩
  | .hbm, ⟨12, _⟩ => ⟨S8000000, .i32⟩
  | .hbm, ⟨13, _⟩ => ⟨S8000000, .i1⟩
  | .hbm, ⟨14, _⟩ => ⟨S_, .i32⟩
  | .hbm, ⟨15, _⟩ => ⟨S8000000, .i32⟩
  | .hbm, ⟨16, _⟩ => ⟨S8000000, .i32⟩
  | .hbm, ⟨17, _⟩ => ⟨S8000000, .i32⟩
  | .hbm, ⟨18, _⟩ => ⟨S8000000x1, .i32⟩
  | .hbm, ⟨19, _⟩ => ⟨S8000000x4, .f32⟩
  | .hbm, ⟨20, _⟩ => ⟨S8000000x4, .f32⟩
  | .hbm, ⟨21, _⟩ => ⟨S8000000x4, .f32⟩
  | .hbm, ⟨22, _⟩ => ⟨S_, .i32⟩
  | .hbm, ⟨23, _⟩ => ⟨S8000000, .i32⟩
  | .hbm, ⟨24, _⟩ => ⟨S8000000, .i1⟩
  | .hbm, ⟨25, _⟩ => ⟨S_, .i32⟩
  | .hbm, ⟨26, _⟩ => ⟨S8000000, .i32⟩
  | .hbm, ⟨27, _⟩ => ⟨S8000000, .i32⟩
  | .hbm, ⟨28, _⟩ => ⟨S8000000, .i32⟩
  | .hbm, ⟨29, _⟩ => ⟨S8000000x1, .i32⟩
  | .hbm, ⟨30, _⟩ => ⟨S8000000x4, .f32⟩
  | .hbm, ⟨31, _⟩ => ⟨S8000000x4, .f32⟩
  | .hbm, ⟨32, _⟩ => ⟨S8000000x4, .f32⟩
  | .hbm, ⟨33, _⟩ => ⟨S_, .f32⟩
  | .hbm, ⟨34, _⟩ => ⟨S200000x4, .f32⟩
  | .hbm, ⟨35, _⟩ => ⟨S_, .i32⟩
  | .hbm, ⟨36, _⟩ => ⟨S8000000, .i32⟩
  | .hbm, ⟨37, _⟩ => ⟨S8000000, .i1⟩
  | .hbm, ⟨38, _⟩ => ⟨S_, .i32⟩
  | .hbm, ⟨39, _⟩ => ⟨S8000000, .i32⟩
  | .hbm, ⟨40, _⟩ => ⟨S8000000, .i32⟩
  | .hbm, ⟨41, _⟩ => ⟨S8000000, .i32⟩
  | .hbm, ⟨42, _⟩ => ⟨S8000000x1, .i32⟩
  | .hbm, ⟨43, _⟩ => ⟨S200000x4, .f32⟩
  | .hbm, ⟨44, _⟩ => ⟨S_, .i32⟩
  | .hbm, ⟨45, _⟩ => ⟨S8000000, .i32⟩
  | .hbm, ⟨46, _⟩ => ⟨S8000000, .i1⟩
  | .hbm, ⟨47, _⟩ => ⟨S_, .i32⟩
  | .hbm, ⟨48, _⟩ => ⟨S8000000, .i32⟩
  | .hbm, ⟨49, _⟩ => ⟨S8000000, .i32⟩
  | .hbm, ⟨50, _⟩ => ⟨S8000000, .i32⟩
  | .hbm, ⟨51, _⟩ => ⟨S8000000x1, .i32⟩
  | .hbm, ⟨52, _⟩ => ⟨S200000x4, .f32⟩
  | .hbm, ⟨53, _⟩ => ⟨S_, .f32⟩
  | .hbm, ⟨54, _⟩ => ⟨S200000x4, .f32⟩
  | .hbm, ⟨55, _⟩ => ⟨S200000x4, .f32⟩
  | _, _ => ⟨S200000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c_1 : Ref sig .tc := ⟨.hbm, 22, rfl⟩
abbrev main_v16 : Ref sig .tc := ⟨.hbm, 23, rfl⟩
abbrev main_v17 : Ref sig .tc := ⟨.hbm, 24, rfl⟩
abbrev main_c_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_c_4 : Ref sig .tc := ⟨.hbm, 35, rfl⟩
abbrev main_v26 : Ref sig .tc := ⟨.hbm, 36, rfl⟩
abbrev main_v27 : Ref sig .tc := ⟨.hbm, 37, rfl⟩
abbrev main_c_5 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_c_6 : Ref sig .tc := ⟨.hbm, 44, rfl⟩
abbrev main_v33 : Ref sig .tc := ⟨.hbm, 45, rfl⟩
abbrev main_v34 : Ref sig .tc := ⟨.hbm, 46, rfl⟩
abbrev main_c_7 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_8 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]

class Facts₀ : Prop where
  bcast_S_S8000000 : S_.BroadcastsInDim S8000000 (![] : Fin 0 → Fin S8000000.rank)
  slices_S8000000x2_S8000000x1_0_0 : S8000000x2.Slices ![0, 0] S8000000x1
  shapeCasts_S8000000x1_S8000000 : S8000000x1.ShapeCasts S8000000
  slices_S8000000x2_S8000000x1_0_1 : S8000000x2.Slices ![0, 1] S8000000x1
  bcast_S8000000_S8000000x1_0 : S8000000.BroadcastsInDim S8000000x1 (![0] : Fin 1 → Fin S8000000x1.rank)
  bcast_S8000000x1_S8000000x4_0_1 : S8000000x1.BroadcastsInDim S8000000x4 (![0, 1] : Fin 2 → Fin S8000000x4.rank)
  bcast_S_S200000x4 : S_.BroadcastsInDim S200000x4 (![] : Fin 0 → Fin S200000x4.rank)
  gather_S200000x4_S8000000x1_S8000000x4_1_0_n_n_0_1_14_wf : GatherDims.WF S200000x4 S8000000x1 S8000000x4 [1] [0] [] [0] [] 1 ![1, 4]
  scatter_S200000x4_S8000000x1_S8000000x4_1_0_0_1_wf : ScatterDims.WF S200000x4 S8000000x1 S8000000x4 [1] [0] [0] 1

variable [Facts₀]

def gather_S200000x4_S8000000x1_S8000000x4_1_0_n_n_0_1_14 : GatherDims S200000x4 S8000000x1 S8000000x4 where
  offsetDims := [1]
  collapsedSliceDims := [0]
  operandBatchingDims := []
  startIndicesBatchingDims := []
  startIndexMap := [0]
  indexVectorDim := 1
  sliceSizes := ![1, 4]
  wf := gather_S200000x4_S8000000x1_S8000000x4_1_0_n_n_0_1_14_wf
def scatter_S200000x4_S8000000x1_S8000000x4_1_0_0_1 : ScatterDims S200000x4 S8000000x1 S8000000x4 where
  updateWindowDims := [1]
  insertedWindowDims := [0]
  scatterDimsToOperandDims := [0]
  indexVectorDim := 1
  wf := scatter_S200000x4_S8000000x1_S8000000x4_1_0_0_1_wf

class Facts : Prop extends Facts₀ where

variable [Facts]
-- ==== Proof.KernelIdealBody.lean ====
/-
  The reciprocal kernel's run on the printed program, for any float instance.

  The pallas_call walks a 62500 x 128 array in eight row blocks of 8000 rows; 8 * 8000 = 64000 > 62500, so the last
  block overhangs the array by 1500 rows and both its fetch and its write-back are cut to the 6500 rows inside.
  The body loads its whole input staging block, divides one by every element, and stores the whole result block.
  Past the array's end the input buffer holds words nothing names; the body divides one by those too (a division
  is total), and the cut write-back never moves them. So everything here is stated on the part of a block that
  the transfers move: after the body the input buffer still holds the array's block there, and the output buffer
  holds its elementwise reciprocal there.

  Contents: the reciprocal of one element and the body's payload at an index; the body's triple on any two whole
  staging buffers; the proof data of the pipeline; the body obligation at every grid point; the run of the whole
  program and its frame (the three argument arrays end as they began).
-/
import proofs.«431245_j25082609008700_3_alg».proof.Proof.Gen.KernelIdeal.Frame
import proofs.«431245_j25082609008700_3_alg».proof.Proof.Gen.KernelIdeal.Skeleton
import Idealize.ShloMosaic.Lib.Pipeline.Kit
import Idealize.ShloMosaic.Lib.Pipeline.Value
import Idealize.ShloMosaic.Lib.Tactic

noncomputable section

namespace Cert.KernelIdeal.Recip

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## One element -/

/-- One over a float: the body's arithmetic on one element (the literal is the float 1.0). -/
def recip (x : F .f32) : F .f32 := FloatOps.divf (Scalar.ofBits .f32 0x3F800000#32) x

/-- The stored block, at an index, is the reciprocal of the loaded block's element there: the shape cast is between
    equal shapes, the one is splat over the block, and the division is lane by lane. -/
theorem pay_apply (X : Vec F S8000x128 .f32) (j : S8000x128.Idx) : k0_pay1 X j = recip (X j) := by
  unfold k0_pay1 recip
  rw [shapeCast_self]
  rfl

/-! ## The body on two whole staging buffers -/

/-- Both accesses of the body are at offsets zero with the buffer's own sizes. -/
theorem zero_offsets : (![0, 0] : Fin 2 → Nat) = fun _ => 0 := funext fun a => by fin_cases a <;> rfl

/-- The body: from an input buffer holding `X0` and an output buffer holding anything, it ends with the input
    buffer unchanged and the output buffer holding the payload of `X0`. (The second load, of the output buffer, is
    dead; the one store covers the whole buffer, so what it held before does not matter.) -/
theorem sound_kernel (c : Dev nD) (E : Set ℕ) (i : grid0.Coords)
    (arg1 : Memref sig .tc .vmem S8000x128 .f32) (harg1 : arg1.IsWhole)
    (arg2 : Memref sig .tc .vmem S8000x128 .f32) (harg2 : arg2.IsWhole)
    (X0 : Vec F S8000x128 .f32) (K : PUnit → sProp 𝕄) :
    iprop(owns (c : Thread nD τ) arg1 fullShare X0 ∗ (∃ d, owns (c : Thread nD τ) arg2 fullShare d)
        ∗ (iprop(owns (c : Thread nD τ) arg1 fullShare X0 ∗ owns (c : Thread nD τ) arg2 fullShare (k0_pay1 X0)) -∗ K ⟨⟩))
      ⊢ wp frame (wpE (defs₀ (F := F)) Variants.none c none) E (cc0__recip_kernel i arg1 harg1 arg2 harg2) K := by
  simp only [cc0__recip_kernel_eq_skeleton]; unfold cc0__recip_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  rw [View.read_writes_eq_canon _ _ _ (fun y => ⟨_, List.mem_singleton.mpr rfl,
      View.mem_set_unit_zero zero_offsets inb_S8000x128_S8000x128_0_0 y⟩),
    View.canon_unit_zero zero_offsets, View.readAt_eq_ld, View.ld_unit_zero (S := S8000x128) zero_offsets]

/-! ## The proof data -/

variable (m : (ℓ : Loc nD τ sig) → Buf (Elt F) ℓ) (ρ : Dev nD → PrngReg)

/-- The input array's block at point `t` (its part inside the array), filled out to the staging shape with `d`. -/
def inFull (c : Dev nD) (t : Fin cfg0.N) (d : S8000x128.Idx → Elt F .f32) : S8000x128.Idx → Elt F .f32 :=
  win0_0.fill (grid0.coords t) d (iblk m c 0 t)

/-- The filler of the proof data past the array's end, which nothing reads: the zero word. -/
def pad : S8000x128.Idx → Elt F .f32 := fun _ => Scalar.ofBits .f32 0#32

/-- The proof data of the one pipeline on core `c`: the arrays as the region finds them; after the body at point `t`
    the input buffer at its block and the output buffer at the payload of that block (each filled out past the
    array's end, where no obligation looks); the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => inFull m c t pad
    | ⟨1, _⟩ => k0_pay1 (inFull m c t pad)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in (c : Dev nD) (t : Fin cfg0.N) : (dats m 0 c).after 0 t = inFull m c t pad := by dsimp only [dats]
theorem after_out (c : Dev nD) (t : Fin cfg0.N) : (dats m 0 c).after 1 t = k0_pay1 (inFull m c t pad) := by dsimp only [dats]

/-- The input window fetches at every point, so the body finds its buffer just fetched: the array's block on the
    part the fetch fills, `d` elsewhere. -/
theorem before_in (c : Dev nD) (t : Fin cfg0.N) (d) : (dats m 0 c).before 0 t d = inFull m c t d := by
  unfold Dat.before; rw [if_pos (fetch0_0 t)]
  unfold Dat.fetched Dat.blockOf inFull iblk
  rw [A_eq]

/-! ## The body obligation -/

/-- On the part the transfers move, the input buffer's contents do not depend on the filler: refilling what the
    proof data names with `d` is the just-fetched block over `d`. -/
theorem refill_in (c : Dev nD) (t : Fin cfg0.N) (d : S8000x128.Idx → Elt F .f32) :
    win0_0.fill (grid0.coords t) d (win0_0.cut (grid0.coords t) (inFull m c t pad)) = inFull m c t d := by
  unfold inFull; rw [Window.cut_fill]

/-- The payload is elementwise, so on the moved part it does not depend on the filler either: there it is the
    reciprocal of the array's element. (The two windows have the same index map and the same cuts, so an index of
    the output block's moved part is one of the input block's.) -/
theorem cut_pay (c : Dev nD) (t : Fin cfg0.N) (d d' : S8000x128.Idx → Elt F .f32) :
    win0_1.cut (grid0.coords t) (k0_pay1 (inFull m c t d)) = win0_1.cut (grid0.coords t) (k0_pay1 (inFull m c t d')) := by
  funext j
  show k0_pay1 (inFull m c t d) (win0_1.xinj (grid0.coords t) j) = k0_pay1 (inFull m c t d') (win0_1.xinj (grid0.coords t) j)
  rw [pay_apply, pay_apply]
  exact congrArg recip ((win0_0.fill_xinj (grid0.coords t) d (iblk m c 0 t) j).trans
    (win0_0.fill_xinj (grid0.coords t) d' (iblk m c 0 t) j).symm)

/-- So the output buffer after the body is what the proof data names on the moved part, itself elsewhere. -/
theorem refill_out (c : Dev nD) (t : Fin cfg0.N) (d : S8000x128.Idx → Elt F .f32) :
    win0_1.fill (grid0.coords t) (k0_pay1 (inFull m c t d)) (win0_1.cut (grid0.coords t) (k0_pay1 (inFull m c t pad)))
      = k0_pay1 (inFull m c t d) := by
  rw [← cut_pay m c t d pad]; exact win0_1.fill_cut _ _

/-- The library's body obligation, at every point: both windows are loose, so each buffer is handed over and
    handed back stated on its moved part only. -/
theorem body_obligation (c : Dev nD) :
    BodyObligationLoose (dats (F := F) m 0 c) (defs₀ (F := F)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩⟩
  rw [before_in m c t d0]
  iapply (sound_kernel (F := F) c Set.univ (grid0.coords t)
    (win0_0.stage (cfg0.slots t 0)) (hstage0_0 ((cfg0.slots t 0).cast nbuf0_0))
    (win0_1.stage (cfg0.slots t 1)) (hstage0_1 ((cfg0.slots t 1).cast nbuf0_1)) (inFull m c t d0) _)
  isplitl [H0]; · iexact H0
  isplitl [H1]; · iexists _; iexact H1
  iintro ⟨H0, H1⟩
  isplitl [HΦ]; · iexact HΦ
  isplitl [Ho]; · iexact Ho
  isplitl [H0]
  · iexists d0
    change _ ⊢ owns (c : Thread nD τ) (stage0_0 (cfg0.slots t 0)) fullShare
      (win0_0.fill (grid0.coords t) d0 (win0_0.cut (grid0.coords t) ((dats m 0 c).after 0 t)))
    rw [after_in, refill_in]
  · iexists k0_pay1 (inFull m c t d0)
    change _ ⊢ owns (c : Thread nD τ) (stage0_1 (cfg0.slots t 1)) fullShare
      (win0_1.fill (grid0.coords t) (k0_pay1 (inFull m c t d0)) (win0_1.cut (grid0.coords t) ((dats m 0 c).after 1 t)))
    rw [after_out, refill_out]

/-! ## The run and the frame -/

set_option backward.isDefEq.respectTransparency.types false in
/-- From any memory with zero counters every weakly fair execution of the program terminates, nothing faulting,
    with every array of the pipeline at what the write-backs of the proof data leave and every other buffer as the
    host lines after the region leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := body_obligation m) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end and its three argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Recip

end
-- ==== Proof.KernelIdealValue.lean ====
/-
  What the idealized kernel program computes, for any float instance.

  The eight row blocks of the pallas_call start at rows 0, 8000, …, 56000 of the 62500 x 128 array and span all 128
  lanes; the first seven lie inside the array and the last has 6500 rows inside it, so the parts the write-backs move
  are rows [8000 t, min (8000 t + 8000) 62500): together, every row. Point t writes back the reciprocal of the input
  array's rows there (the body's payload on the moved part), so after the run the output array holds the reciprocal
  of the input array, element by element.

  Around the region the program is host arithmetic: before it, the two index columns are sliced off the index pairs
  and the distances are laid out as 62500 x 128; after it, the result is laid out as a column of 8000000 weights and
  the rest — two row gathers of the charges, the products with the weights, two scatter-adds into zeros, the halving —
  is one function of the charges, the two index columns and the weight column, which is stated once (`hostTail`) and
  never opened: the reference applies the same function to its own weight column.
-/
import proofs.«431245_j25082609008700_3_alg».proof.Proof.KernelIdealBody
import Idealize.ShloMosaic.Lib.StableHlo.Run
import Idealize.ShloMosaic.Lib.Pipeline.Value

set_option maxRecDepth 16384

noncomputable section

namespace Cert.KernelIdeal.Recip

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]

/-! ## The host arithmetic around the region, as functions -/

/-- The first (second) column of the index pairs, as a vector of 8000000 indices. -/
def colIdx (k : Fin 2) (x1 : IVec S8000000x2 32) : IVec S8000000 32 :=
  match k with
  | 0 => shapeCast S8000000 (extractStridedSlice S8000000x1 ![0, 0] x1 slices_S8000000x2_S8000000x1_0_0) shapeCasts_S8000000x1_S8000000
  | 1 => shapeCast S8000000 (extractStridedSlice S8000000x1 ![0, 1] x1 slices_S8000000x2_S8000000x1_0_1) shapeCasts_S8000000x1_S8000000

/-- An index vector as jnp's indexing reads it — a negative index counts from the end of the 200000 rows — laid out as
    a column. -/
def wrapIdx (v : IVec S8000000 32) : IVec S8000000x1 32 :=
  broadcastInDim S8000000x1 ![0] bcast_S8000000_S8000000x1_0
    (select (cmpi .slt v (broadcastInDim S8000000 ![] bcast_S_S8000000 (constantI S_ 32 0#32)))
      (addi v (broadcastInDim S8000000 ![] bcast_S_S8000000 (constantI S_ 32 200000#32))) v)

/-- Everything after the pair weights: for each pair the j-row of the charges times the weight is added into row i,
    and the i-row times the weight into row j, starting from zeros; the sums are halved. A function of the charges,
    the two index vectors and the weight column; nothing below looks inside it. -/
def hostTail (x0 : FVec F S200000x4 .f32) (is js : IVec S8000000 32) (w : FVec F S8000000x1 .f32) : FVec F S200000x4 .f32 :=
  Host.divf
    (Host.scatterAdd scatter_S200000x4_S8000000x1_S8000000x4_1_0_0_1
      (Host.scatterAdd scatter_S200000x4_S8000000x1_S8000000x4_1_0_0_1
        (broadcastInDim S200000x4 ![] bcast_S_S200000x4 (constant (F := F) S_ .f32 0x00000000#32))
        (wrapIdx is)
        (mulf (Host.gather gather_S200000x4_S8000000x1_S8000000x4_1_0_n_n_0_1_14 x0 (wrapIdx js))
          (broadcastInDim S8000000x4 ![0, 1] bcast_S8000000x1_S8000000x4_0_1 w)))
      (wrapIdx js)
      (mulf (Host.gather gather_S200000x4_S8000000x1_S8000000x4_1_0_n_n_0_1_14 x0 (wrapIdx is))
        (broadcastInDim S8000000x4 ![0, 1] bcast_S8000000x1_S8000000x4_0_1 w)))
    (broadcastInDim S200000x4 ![] bcast_S_S200000x4 (constant (F := F) S_ .f32 0x40000000#32))

/-- The kernel program's weight column from the distances: laid out as 62500 x 128, the reciprocal taken element by
    element, laid out flat again and then as a column. -/
def weightCol (x2 : FVec F S8000000 .f32) : FVec F S8000000x1 .f32 :=
  shapeCast S8000000x1
    (shapeCast S8000000 (fun i => recip (shapeCast S62500x128 x2 shapeCasts_S8000000_S62500x128 i) : FVec F S62500x128 .f32)
      shapeCasts_S62500x128_S8000000)
    shapeCasts_S8000000_S8000000x1

variable (m : (ℓ : Loc nD τ sig) → Buf (Elt F) ℓ) (ρ : Dev nD → PrngReg)

/-! ## The output array after the run -/

/-- Where the blocks sit, decided over the eight grid points: block `t` of either window starts at row 8000 t and
    spans all 128 lanes; 8000 of its rows are inside the array, but for the last block, which has 62500 - 56000. -/
theorem blk_facts : ∀ t : Fin cfg0.N,
    win0_0.index t 0 = t.val ∧ win0_0.index t 1 = 0 ∧ win0_1.index t 0 = t.val ∧ win0_1.index t 1 = 0
    ∧ win0_1.xsize (grid0.coords t) 0 = min 8000 (62500 - 8000 * t.val) ∧ win0_1.xsize (grid0.coords t) 1 = 128 :=
  (by decide +kernel : ∀ t : Fin grid0.N, _)

/-- The reciprocal of the whole input array as the region finds it, element by element. -/
def recipArr (c : Dev nD) : Buf (Elt F) ((c : Thread nD τ).loc main_v5) := fun i => recip (V m c main_v4 i)

/-- What point `t` writes back is block `t` of that array: on the moved part the payload is the reciprocal of the
    fetched element, and the two windows' blocks sit at the same place of their arrays. -/
theorem flushed_eq (c : Dev nD) (t : Fin cfg0.N) :
    (dats m 0 c).flushed 1 t = ((cfg0.win 1).blk t).view.read (Elt F) (recipArr m c) := by
  show win0_1.cut (grid0.coords t) ((dats m 0 c).after 1 t) = _
  rw [after_out]
  funext j
  show k0_pay1 (inFull m c t pad) (win0_1.xinj (grid0.coords t) j) = recipArr m c (((cfg0.win 1).blk t).view.emb j)
  rw [pay_apply]
  unfold recipArr
  refine congrArg recip ((win0_0.fill_xinj (grid0.coords t) pad (iblk m c 0 t) j).trans ?_)
  show V m c main_v4 (((cfg0.win 0).blk t).view.emb j) = V m c main_v4 (((cfg0.win 1).blk t).view.emb j)
  rfl

/-- Every row of the array lies in the moved part of the block of point `row / 8000`: the eight write-backs cover
    the array. -/
theorem covered (i : S62500x128.Idx) :
    ∃ t : Fin cfg0.N, (cfg0.win 1).flush t = true ∧ i ∈ ((cfg0.win 1).blk t).view.set := by
  have hi : (i 0 : Nat) < 62500 := (i 0).isLt
  have hl : (i 1 : Nat) < 128 := (i 1).isLt
  have ht : (i 0 : Nat) / 8000 < cfg0.N := by show _ < grid0.N; rw [N_0]; omega
  refine ⟨⟨(i 0 : Nat) / 8000, ht⟩, flush0_1 _, ?_⟩
  obtain ⟨-, -, h0, h1, hx0, hx1⟩ := blk_facts ⟨(i 0 : Nat) / 8000, ht⟩
  show i ∈ ((View.whole main_v5).slice (win0_1.rect ⟨(i 0 : Nat) / 8000, ht⟩)).set
  rw [View.set_slice_whole, Rect.mem_set_unit]
  intro a
  match a with
  | ⟨0, _⟩ =>
    show win0_1.index ⟨(i 0 : Nat) / 8000, ht⟩ 0 * 8000 ≤ (i 0 : Nat)
      ∧ (i 0 : Nat) < win0_1.index ⟨(i 0 : Nat) / 8000, ht⟩ 0 * 8000 + win0_1.xsize (grid0.coords ⟨(i 0 : Nat) / 8000, ht⟩) 0
    rw [h0, hx0]
    show (i 0 : Nat) / 8000 * 8000 ≤ _ ∧ _ < (i 0 : Nat) / 8000 * 8000 + min 8000 (62500 - 8000 * ((i 0 : Nat) / 8000))
    omega
  | ⟨1, _⟩ =>
    show win0_1.index ⟨(i 0 : Nat) / 8000, ht⟩ 1 * 128 ≤ (i 1 : Nat)
      ∧ (i 1 : Nat) < win0_1.index ⟨(i 0 : Nat) / 8000, ht⟩ 1 * 128 + win0_1.xsize (grid0.coords ⟨(i 0 : Nat) / 8000, ht⟩) 1
    rw [h1, hx1]; omega

/-- After the run the output array holds the reciprocal of the input array, every element. -/
theorem final_out (c : Dev nD) : (dats m 0 c).arrAt 1 cfg0.N = recipArr m c :=
  (dats m 0 c).arrAt_eq_of_cover 1 (recipArr m c) (fun t _ => flushed_eq m c t) covered

/-! ## The program's result -/

/-- A buffer's contents where the host lines after the region start: the pipeline's arrays as the run left them,
    everything else as the region found it. -/
abbrev exitAt (c : Dev nD) (b : Ref sig .tc) :=
  Pipeline.withArrays (cfgs 0).spec c (V0 m c) (fun w => (dats m 0 c).arrAt w (cfgs 0).N) (Proc.devRef .tc b)

set_option maxHeartbeats 2000000 in
/-- The lines after the region compute the tail function of the four buffers they read. -/
theorem tail_eq (c : Dev nD) :
    Pipeline.afterTail₀ cfgs (dats m) 0 (V0 m) [hostOps1] c main_v42
      = hostTail (exitAt m c main_arg0) (exitAt m c main_v1) (exitAt m c main_v3)
          (shapeCast S8000000x1 (shapeCast S8000000 (exitAt m c main_v5) shapeCasts_S62500x128_S8000000) shapeCasts_S8000000_S8000000x1) := by
  unfold Pipeline.afterTail₀
  show StableHlo.after hostOps1 _ (Proc.devRef .tc main_v42) = _
  after_results_simp
  rfl

/-- The output array at the region's exit. -/
theorem exit_out (c : Dev nD) : exitAt m c main_v5 = recipArr m c :=
  (Pipeline.withArrays_arr spec0 launch0.win.arr_inj c _ _ 1).trans (final_out m c)

/-- The charges are no array of the pipeline and no host line before the region writes them. -/
theorem exit_charges (c : Dev nD) : exitAt m c main_arg0 = m ((c : Thread nD τ).loc main_arg0) :=
  (Pipeline.withArrays_of_ne _ c (V0 m c) _ main_arg0 (by exact (by decide : ∀ w, Pipeline.arrRef spec0 w ≠ main_arg0))).trans
    (V_main_arg0 m c)

/-- The two index vectors are what the host lines before the region sliced off the index pairs. -/
theorem exit_is (c : Dev nD) : exitAt m c main_v1 = colIdx 0 (m ((c : Thread nD τ).loc main_arg1)) := by
  refine (Pipeline.withArrays_of_ne _ c (V0 m c) _ main_v1 (by exact (by decide : ∀ w, Pipeline.arrRef spec0 w ≠ main_v1))).trans ?_
  show StableHlo.after hostOps0 (fun b => m (c, b)) (Proc.devRef .tc main_v1) = _
  after_results
  rfl
theorem exit_js (c : Dev nD) : exitAt m c main_v3 = colIdx 1 (m ((c : Thread nD τ).loc main_arg1)) := by
  refine (Pipeline.withArrays_of_ne _ c (V0 m c) _ main_v3 (by exact (by decide : ∀ w, Pipeline.arrRef spec0 w ≠ main_v3))).trans ?_
  show StableHlo.after hostOps0 (fun b => m (c, b)) (Proc.devRef .tc main_v3) = _
  after_results
  rfl

/-- The input array as the region finds it is the distances laid out as 62500 x 128. -/
theorem entry_in (c : Dev nD) :
    (V m c main_v4 : S62500x128.Idx → Elt F .f32) = shapeCast S62500x128 (m ((c : Thread nD τ).loc main_arg2)) shapeCasts_S8000000_S62500x128 := by
  show StableHlo.after hostOps0 (fun b => m (c, b)) (Proc.devRef .tc main_v4) = _
  after_results
  rfl

/-- So the program's result is the tail function of the launch arguments: the charges, the two columns of the index
    pairs, and the weight column of the distances. -/
theorem result_eq (c : Dev nD) :
    Pipeline.afterTail₀ cfgs (dats m) 0 (V0 m) [hostOps1] c main_v42
      = hostTail (m ((c : Thread nD τ).loc main_arg0)) (colIdx 0 (m ((c : Thread nD τ).loc main_arg1)))
          (colIdx 1 (m ((c : Thread nD τ).loc main_arg1))) (weightCol (m ((c : Thread nD τ).loc main_arg2))) := by
  rw [tail_eq, exit_out, exit_charges, exit_is, exit_js]
  unfold recipArr weightCol
  rw [entry_in]
  rfl

/-- The run, with its result named: every weakly fair execution terminates with the result buffer at the tail
    function of the launch arguments and the three argument arrays as they began. -/
theorem run_value : θ_run defs (onTc (τ := τ) (main (F := F))) ⟨m, fun _ => 0, ρ⟩ (fun r => ∀ c : Dev nD,
      r.2.mem ((c.tc : Thread nD τ).loc main_v42)
        = hostTail (m ((c : Thread nD τ).loc main_arg0)) (colIdx 0 (m ((c : Thread nD τ).loc main_arg1)))
            (colIdx 1 (m ((c : Thread nD τ).loc main_arg1))) (weightCol (m ((c : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v42 (Pipeline.mem_restRefs_of main_v42 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Recip

end
-- ==== Proof.RecipLaw.lean ====
/-
  The law that joins the two programs, on one element.

  The kernel computes one over r with a float division; the reference raises r to the power minus one. On the
  extended reals the two agree exactly when r is a real number other than zero: the division is then the product
  of one with the real inverse of r, and Mathlib's real power at the exponent -1 is that inverse, for a negative
  base as for a positive one. (At r = 0 they differ — the division by zero is an infinity, the real power 0^(-1)
  is 0 — which is why the statement carries the reference's own domain, r ≠ 0.)
-/
import Idealize.ShloMosaic.PureOps.Ideal
import Mathlib.Analysis.SpecialFunctions.Pow.Real

noncomputable section

namespace Cert.RecipLaw

open Idealize.ShloMosaic

/-- The float literal 1.0 (sign 0, exponent 127, fraction 0) denotes the real number one. -/
theorem one_f32 : Ideal.ofBits .f32 0x3F800000#32 = ((1 : ℝ) : EReal) := by
  simp [Ideal.ofBits, Ideal.ieee, -EReal.coe_mul]; norm_num

/-- The float literal -1.0 denotes minus one. -/
theorem neg_one_f32 : Ideal.ofBits .f32 0xBF800000#32 = ((-1 : ℝ) : EReal) := by
  simp [Ideal.ofBits, Ideal.ieee, -EReal.coe_mul]; norm_num

/-- One over a nonzero real is that real to the power minus one, as extended reals. -/
theorem div_one_eq_pow_neg_one {r : ℝ} (hr : r ≠ 0) :
    Ideal.div ((1 : ℝ) : EReal) (r : EReal) = Ideal.pow (r : EReal) ((-1 : ℝ) : EReal) := by
  rw [Ideal.div_coe hr, Ideal.pow_coe_coe, ← EReal.coe_mul, Real.rpow_eq_pow, Real.rpow_neg_one]
  congr 1
  ring

/-- The same over the two programs' literals: the kernel's division of the float 1.0 by r is the reference's
    power of r at the float -1.0. -/
theorem recip_eq_pow {r : ℝ} (hr : r ≠ 0) :
    Ideal.div (Ideal.ofBits .f32 0x3F800000#32) (r : EReal) = Ideal.pow (r : EReal) (Ideal.ofBits .f32 0xBF800000#32) := by
  rw [one_f32, neg_one_f32]; exact div_one_eq_pow_neg_one hr

end Cert.RecipLaw

end
-- ==== Proof.RecipDomain.lean ====
/-
  What the precondition says of the distances, read at the ideal instance.

  The printed precondition is the conjunction of three `jnp.all`s: every charge has finite magnitude, every distance
  has finite magnitude, and every distance differs from zero (the reference's own domain: it raises the distance to
  a negative power). Only the two about the distances are used: together they say each distance is a real number
  other than zero, which is where one over r and r to the power minus one agree.
-/
import proofs.«431245_j25082609008700_3_alg».proof.Pre_finite_inputs
import Idealize.ShloMosaic.PureOps.Ideal
import Idealize.ShloMosaic.PureOps.Ideal.Laws
import Idealize.ShloMosaic.Lib.ReduceAll
import Idealize.ShloMosaic.Lib.ValueIdx
import Idealize.ShloMosaic.Lib.Affine
import Idealize.ShloMosaic.Lib.Pipeline.Value

noncomputable section

namespace Cert.RecipDomain

open Idealize.ShloMosaic Cert.Pre_finite_inputs

/-- The float pattern with exponent all ones and fraction zero is plus infinity. -/
theorem inf_f32 : Ideal.ofBits .f32 0x7F800000#32 = ⊤ := by
  simp [Ideal.ofBits, Ideal.ieee]

/-- An extended real whose magnitude is below plus infinity and which differs from zero is a nonzero real. -/
theorem real_nonzero_of_cmp (x : EReal) (hfin : Ideal.cmp .olt (max x (-x)) ⊤ = 1#1) (hne : Ideal.cmp .une x 0 = 1#1) :
    ∃ r : ℝ, r ≠ 0 ∧ x = (r : EReal) := by
  induction x using EReal.rec with
  | bot => simp [Ideal.cmp] at hfin
  | top => simp [Ideal.cmp] at hfin
  | coe r =>
    refine ⟨r, fun h0 => ?_, rfl⟩
    subst h0
    simp [Ideal.cmp] at hne

variable [Cert.Pre_finite_inputs.Facts]
open Cert.Pre_finite_inputs.Facts

/-- The scalar shape has one index. -/
instance : Subsingleton S_.Idx := ⟨fun a b => funext fun d => d.elim0⟩

/-- Under the precondition every distance is a nonzero real. -/
theorem distance_real_nonzero (x0 : FVec Ideal S200000x4 .f32) (x1 : IVec S8000000x2 32) (x2 : FVec Ideal S8000000 .f32)
    (h : fn (F := Ideal) x0 x1 x2 = fun _ => 1#1) (i : S8000000.Idx) : ∃ r : ℝ, r ≠ 0 ∧ x2 i = (r : EReal) := by
  have h0 := congrFun h ValueIdx.ix0
  dsimp only [fn] at h0
  obtain ⟨h12, h3⟩ := IntOp.andi_eq_one.mp h0
  have hfin := Host.reduce_andi_all _ _ _ _ _ (IntOp.andi_eq_one.mp h12).2 i
  have hne := Host.reduce_andi_all _ _ _ _ _ h3 i
  rw [ValueIdx.cmpf_apply, broadcastInDim_apply _ bcast_S_S8000000 _ i (fun a => a.elim0) (fun a => a.elim0)] at hfin hne
  refine real_nonzero_of_cmp (x2 i) ?_ ?_
  · rw [← inf_f32]; exact hfin
  · rw [← Ideal.ofBits_zero_f32]; exact hne

end Cert.RecipDomain

end
-- ==== Proof.RecipBridge.lean ====
/-
  The two programs compute one function, at the ideal instance.

  Both end with the same host arithmetic applied to the charges, the two index columns and a column of pair weights;
  they differ only in how the weight of a pair is computed from its distance r: the kernel program lays the distances
  out as 62500 x 128, takes one over r in its pallas_call and lays the result out as a column, the reference raises r
  to the power minus one and lays that out as a column. The layouts cancel (a reshape there and back is the identity,
  and both columns read entry p of the flat vector at row p), and under the precondition every r is a real number
  other than zero, where 1 / r = r ^ (-1).
-/
import proofs.«431245_j25082609008700_3_alg».proof.Proof.KernelIdealValue
import proofs.«431245_j25082609008700_3_alg».proof.Proof.RecipLaw
import proofs.«431245_j25082609008700_3_alg».proof.Proof.RecipDomain
import proofs.«431245_j25082609008700_3_alg».proof.Proof.Gen.ReferenceIdeal.Read
import Idealize.ShloMosaic.Lib.Pipeline.Value
import Idealize.ShloMosaic.Lib.ValueIdx

set_option maxRecDepth 16384

noncomputable section

namespace Cert.RecipBridge

open Idealize.ShloMosaic Cert.KernelIdeal Cert.KernelIdeal.Gen Cert.KernelIdeal.Recip

/-- The reference's weight column: the distances to the power minus one (the float literal -1.0 splat over the
    vector), laid out as a column. -/
def powCol (x2 : FVec Ideal S8000000 .f32) : FVec Ideal S8000000x1 .f32 :=
  broadcastInDim S8000000x1 ![0] bcast_S8000000_S8000000x1_0
    (Host.powf x2 (broadcastInDim S8000000 ![] bcast_S_S8000000 (constant (F := Ideal) S_ .f32 0xBF800000#32)))

/-- Where every distance is a nonzero real, the kernel program's weight column is the reference's. -/
theorem weightCol_eq_powCol (x2 : FVec Ideal S8000000 .f32) (hx : ∀ i, ∃ r : ℝ, r ≠ 0 ∧ x2 i = (r : EReal)) :
    weightCol (F := Ideal) x2 = powCol x2 := by
  funext j
  have hj0 : (j 0).val < 8000000 := (j 0).isLt
  have hj1 : (j 1).val < 1 := (j 1).isLt
  -- row p of either column is entry p of the flat vector
  let k : S8000000.Idx := fun a => match a with | ⟨0, _⟩ => ⟨(j 0).val, hj0⟩
  unfold weightCol powCol
  rw [show (fun i => recip (shapeCast S62500x128 x2 shapeCasts_S8000000_S62500x128 i) : FVec Ideal S62500x128 .f32)
        = shapeCast S62500x128 (fun p => recip (x2 p)) shapeCasts_S8000000_S62500x128 from rfl,
    shapeCast_shapeCast]
  rw [shapeCast_apply (fun p => recip (x2 p)) shapeCasts_S8000000_S8000000x1 j k
      (by rewrite [Shape.rowMajor_val_one, Shape.rowMajor_val_two]; show (j 0).val = (j 0).val * 1 + (j 1).val; omega),
    broadcastInDim_apply _ bcast_S8000000_S8000000x1_0 _ j k (fun a => match a with
      | ⟨0, _⟩ => by show (j 0).val = if (8000000 : Nat) = 1 then 0 else (j 0).val; rw [if_neg (by decide)])]
  obtain ⟨r, hr, hxr⟩ := hx k
  show Ideal.div (Ideal.ofBits .f32 0x3F800000#32) (x2 k)
    = Ideal.pow (x2 k) (broadcastInDim S8000000 ![] bcast_S_S8000000 (constant (F := Ideal) S_ .f32 0xBF800000#32) k)
  rw [broadcastInDim_apply _ bcast_S_S8000000 _ k (fun a => a.elim0) (fun a => a.elim0), hxr]
  exact Cert.RecipLaw.recip_eq_pow hr

/-- The reference's result, as its run states it, is the tail function of the charges, the two index columns and the
    power column: its host lines after the power are, line for line, the kernel program's after the pallas_call. -/
theorem ref_result_eq (x0 : FVec Ideal S200000x4 .f32) (x1 : IVec S8000000x2 32) (x2 : FVec Ideal S8000000 .f32) :
    Cert.ReferenceIdeal.Read.val_main_v41 (F := Ideal) x0 x1 x2 = hostTail x0 (colIdx 0 x1) (colIdx 1 x1) (powCol x2) := rfl

end Cert.RecipBridge

end
-- ==== Proof.lean ====
/-
  The certificate: a pair-potential accumulation whose pair weights are one over the pair distance.

  Both programs take per-atom charges (200000 x 4), 8000000 index pairs (i, j) and 8000000 pair distances r. Each
  pair adds charges[j] * w into row i and charges[i] * w into row j of a zero array, and the sums are halved. The
  kernel program computes w = 1 / r in a pallas_call over the distances laid out as 62500 x 128 (eight row blocks of
  8000, the last cut at the array's end); the reference computes w = r ^ (-1). The precondition says every float input
  is finite and every distance differs from zero — the reference's own domain, since it raises r to a negative power.

  The three frames: each program runs to the end, faults nowhere and leaves its arguments unchanged (the two kernel
  programs by the body's run on the pipeline, at the word-level and at the ideal instance; the reference by its host
  run). The ideal pass rewrote nothing, so there is nothing to preserve. The two idealized programs end with equal
  results: both are the same host arithmetic applied to the charges, the index columns and a weight column, and the
  two weight columns agree because every distance is a nonzero real, where 1 / r = r ^ (-1).
-/
import proofs.«431245_j25082609008700_3_alg».proof.Defs
import proofs.«431245_j25082609008700_3_alg».proof.Proof.Gen.Kernel
import proofs.«431245_j25082609008700_3_alg».proof.Proof.Gen.KernelIdeal
import proofs.«431245_j25082609008700_3_alg».proof.Proof.Gen.ReferenceIdeal
import proofs.«431245_j25082609008700_3_alg».proof.Proof.Gen.ReferenceIdeal.Run
import proofs.«431245_j25082609008700_3_alg».proof.Proof.Gen.ReferenceIdeal.Read
import proofs.«431245_j25082609008700_3_alg».proof.Proof.Gen.Pre_finite_inputs
import proofs.«431245_j25082609008700_3_alg».proof.Proof.KernelBody
import proofs.«431245_j25082609008700_3_alg».proof.Proof.KernelIdealBody
import proofs.«431245_j25082609008700_3_alg».proof.Proof.KernelIdealValue
import proofs.«431245_j25082609008700_3_alg».proof.Proof.RecipBridge
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Recip.frame m ρ

/-- So does the idealized one. -/
theorem frame_kernelIdeal : Cert.frame_KernelIdeal := fun m ρ _ => Cert.KernelIdeal.Recip.frame m ρ

/-- The reference is host arithmetic only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the arguments the two idealized programs end with equal results: the kernel
    program's is the tail function at the reciprocal column, the reference's the same function at the power column,
    and under the precondition the two columns are one. -/
theorem algebraic : Cert.algebraic_KernelIdeal_ReferenceIdeal := by
  intro m ρ m' ρ' hpre hagree
  refine ⟨_, Cert.KernelIdeal.Recip.run_value (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v41_eq, Cert.RecipBridge.ref_result_eq, (hagree c).1, (hagree c).2.1, (hagree c).2.2,
    Cert.RecipBridge.weightCol_eq_powCol _ (fun i => Cert.RecipDomain.distance_real_nonzero _ _ _ (hpre c) i)]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
